-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x1024 : Shape := ⟨3, ![64, 256, 1024]⟩
abbrev S64x256x256 : Shape := ⟨3, ![64, 256, 256]⟩
abbrev S1024x512 : Shape := ⟨2, ![1024, 512]⟩
abbrev S512 : Shape := ⟨1, ![512]⟩
abbrev S_ : Shape := ⟨0, ![]⟩

class Facts : Prop where
  bcast_S_S64x256x1024 : S_.BroadcastsInDim S64x256x1024 (![] : Fin 0 → Fin S64x256x1024.rank)
  reducesTo_S64x256x1024_S_d0_1_2 : S64x256x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_arg6 : FVec F S1024x512 .f32) (main_arg7 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S64x256x1024 .f32) (main_arg1 : IVec S64x256x256 32) (main_arg2 : FVec F S1024x512 .f32) (main_arg3 : FVec F S512 .f32) (main_arg4 : FVec F S1024x512 .f32) (main_arg5 : FVec F S512 .f32) (main_arg6 : FVec F S1024x512 .f32) (main_arg7 : FVec F S512 .f32) : IVec S_ 1 :=
  let main_v0 : FVec F S64x256x1024 .f32 := Host.absf main_arg0
  let main_cst : FVec F S_ .f32 := constant S_ .f32 0x7F800000#32
  let main_v1 : FVec F S64x256x1024 .f32 := broadcastInDim S64x256x1024 ![] bcast_S_S64x256x1024 main_cst
  let main_v2 : IVec S64x256x1024 1 := cmpf .olt main_v0 main_v1
  let main_c : IVec S_ 1 := constantI S_ 1 1#1
  let main_v3 : IVec S_ 1 := (fun x v => Host.reduce IntOp.andi x v reducesTo_S64x256x1024_S_d0_1_2 h_S_) main_v2 main_c
  let main_v4 : FVec F S1024x512 .f32 := Host.absf main_arg2
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x512 .f32 := Host.absf main_arg4
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg5 main_arg6 main_arg7 main_v13 main_v16
-- ==== Kernel.lean ====
abbrev S64x256x1024 : Shape := ⟨3, ![64, 256, 1024]⟩
abbrev S64x256x256 : Shape := ⟨3, ![64, 256, 256]⟩
abbrev S1024x512 : Shape := ⟨2, ![1024, 512]⟩
abbrev S512 : Shape := ⟨1, ![512]⟩
abbrev S16384x1024 : Shape := ⟨2, ![16384, 1024]⟩
abbrev S_ : Shape := ⟨0, ![]⟩
abbrev S1x512 : Shape := ⟨2, ![1, 512]⟩
abbrev S16384x512 : Shape := ⟨2, ![16384, 512]⟩
abbrev S1024x1024 : Shape := ⟨2, ![1024, 1024]⟩
abbrev S64x256x512 : Shape := ⟨3, ![64, 256, 512]⟩

abbrev nBuf : Space → Nat
  | .hbm => 28
  | .vmem => 6
  | .smem => 0
  | _ => 0

abbrev bufTy : (tb : Table) → Fin (tcTables nBuf tb) → BufTy
  | .hbm, ⟨0, _⟩ => ⟨S64x256x1024, .f32⟩
  | .hbm, ⟨1, _⟩ => ⟨S64x256x256, .i32⟩
  | .hbm, ⟨2, _⟩ => ⟨S1024x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S16384x1024, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S16384x512, .f32⟩
  | .hbm, ⟨27, _⟩ => ⟨S64x256x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | _, _ => ⟨S64x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x256x1024_S16384x1024 : S64x256x1024.ShapeCasts S16384x1024
  bcast_S_S1024x512 : S_.BroadcastsInDim S1024x512 (![] : Fin 0 → Fin S1024x512.rank)
  bcast_S_S512 : S_.BroadcastsInDim S512 (![] : Fin 0 → Fin S512.rank)
  shapeCasts_S512_S1x512 : S512.ShapeCasts S1x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S16384x512_S64x256x512 : S16384x512.ShapeCasts S64x256x512
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x1024 : Shape := ⟨3, ![64, 256, 1024]⟩
abbrev S64x256x256 : Shape := ⟨3, ![64, 256, 256]⟩
abbrev S1024x512 : Shape := ⟨2, ![1024, 512]⟩
abbrev S512 : Shape := ⟨1, ![512]⟩
abbrev S16384x1024 : Shape := ⟨2, ![16384, 1024]⟩
abbrev S16384x512 : Shape := ⟨2, ![16384, 512]⟩
abbrev S1x512 : Shape := ⟨2, ![1, 512]⟩
abbrev S_ : Shape := ⟨0, ![]⟩
abbrev S64x256x512 : Shape := ⟨3, ![64, 256, 512]⟩

abbrev nBuf : Space → Nat
  | .hbm => 30
  | .vmem => 0
  | .smem => 0
  | _ => 0

abbrev bufTy : (tb : Table) → Fin (tcTables nBuf tb) → BufTy
  | .hbm, ⟨0, _⟩ => ⟨S64x256x1024, .f32⟩
  | .hbm, ⟨1, _⟩ => ⟨S64x256x256, .i32⟩
  | .hbm, ⟨2, _⟩ => ⟨S1024x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S16384x1024, .f32⟩
  | .hbm, ⟨9, _⟩ => ⟨S16384x512, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S1x512, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S1x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S64x256x512, .f32⟩
  | _, _ => ⟨S64x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  shapeCasts_S64x256x1024_S16384x1024 : S64x256x1024.ShapeCasts S16384x1024
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  shapeCasts_S16384x512_S64x256x512 : S16384x512.ShapeCasts S64x256x512
  dot_S16384x1024_S1024x512_S16384x512_1_0_0_1_n_n_wf : DotDims.WF S16384x1024 S1024x512 S16384x512 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.Law.lean ====
/-
  The mathematics of the certificate, with no program in sight.

  Write `X` for the activations as a matrix [16384, 1024], `Wo Wi Wr` for the three weight matrices
  [1024, 512], `bo bi br` for the three bias vectors [512], and `h` for the scalar one half.  Two
  functions of an output index `(r, n)`:

  * the FUSED form — one product with a combined weight, one combined bias:
      `∑ k, X r k * ((h * Wo k n + h * Wi k n) + Wr k n)  +  ((h * bo n + h * bi n) + br n)`;
  * the SPLIT form — three products, each with its own bias, the first two scaled by `h`:
      `(h * (∑ k, X r k * Wo k n + bo n) + h * (∑ k, X r k * Wi k n + bi n)) + (∑ k, X r k * Wr k n + br n)`.

  Over the reals they are equal by distributivity of the product over the finite sum.  Over the
  extended reals distributivity fails at the infinities, so the equality is stated for arrays all of
  whose entries are real numbers; it is proved by naming the real entries, pushing the coercion
  outwards and doing the algebra in ℝ.
-/
import Idealize.ShloMosaic.PureOps.Ideal
import Idealize.ShloMosaic.Lib.ValueIdx

noncomputable section

namespace Cert.Fused

open Idealize.ShloMosaic Idealize.ShloMosaic.ValueIdx

/-- The activations as a matrix. -/
abbrev SX : Shape := ⟨2, ![16384, 1024]⟩
/-- A weight matrix. -/
abbrev SW : Shape := ⟨2, ![1024, 512]⟩
/-- A bias vector. -/
abbrev SB : Shape := ⟨1, ![512]⟩
/-- The result as a matrix. -/
abbrev SY : Shape := ⟨2, ![16384, 512]⟩

/-- The scalar both programs scale by: the f32 pattern of one half. -/
abbrev half : EReal := Ideal.ofBits .f32 0x3F000000#32

/-- The pattern denotes the real number 1/2. -/
theorem half_eq : half = (((1 / 2 : ℝ)) : EReal) := by
  simp [half, Ideal.ofBits, Ideal.ieee, -EReal.coe_mul]; norm_num

/-- One product with the combined weight plus the combined bias. -/
def fused (X : SX.Idx → EReal) (Wi : SW.Idx → EReal) (bi : SB.Idx → EReal) (Wo : SW.Idx → EReal) (bo : SB.Idx → EReal)
    (Wr : SW.Idx → EReal) (br : SB.Idx → EReal) : SY.Idx → EReal := fun i =>
  (∑ k : Fin 1024, X (ix2 (i 0) k) * ((half * Wo (ix2 k (i 1)) + half * Wi (ix2 k (i 1))) + Wr (ix2 k (i 1))))
    + ((half * bo (ix1 (i 1)) + half * bi (ix1 (i 1))) + br (ix1 (i 1)))

/-- Three products, each with its bias, the first two scaled by one half. -/
def split (X : SX.Idx → EReal) (Wi : SW.Idx → EReal) (bi : SB.Idx → EReal) (Wo : SW.Idx → EReal) (bo : SB.Idx → EReal)
    (Wr : SW.Idx → EReal) (br : SB.Idx → EReal) : SY.Idx → EReal := fun i =>
  (half * ((∑ k : Fin 1024, X (ix2 (i 0) k) * Wo (ix2 k (i 1))) + bo (ix1 (i 1)))
      + half * ((∑ k : Fin 1024, X (ix2 (i 0) k) * Wi (ix2 k (i 1))) + bi (ix1 (i 1))))
    + ((∑ k : Fin 1024, X (ix2 (i 0) k) * Wr (ix2 k (i 1))) + br (ix1 (i 1)))

/-- The coercion of the reals into the extended reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Distributivity over a finite sum, in ℝ: the fused row-times-column is the split one. -/
theorem law_real {K : Type} [Fintype K] (h : ℝ) (x a b c : K → ℝ) (p q r : ℝ) :
    (∑ k, x k * ((h * a k + h * b k) + c k)) + ((h * p + h * q) + r)
      = (h * ((∑ k, x k * a k) + p) + h * ((∑ k, x k * b k) + q)) + ((∑ k, x k * c k) + r) := by
  have e : ∀ k, x k * ((h * a k + h * b k) + c k) = h * (x k * a k) + h * (x k * b k) + x k * c k := fun k => by ring
  simp only [e, Finset.sum_add_distrib, ← Finset.mul_sum]
  ring

/-- The same on extended reals that are real numbers. -/
theorem law_ereal {K : Type} [Fintype K] (h : ℝ) (x a b c : K → ℝ) (p q r : ℝ) :
    (∑ k, (x k : EReal) * (((h : EReal) * (a k : EReal) + (h : EReal) * (b k : EReal)) + (c k : EReal)))
        + (((h : EReal) * (p : EReal) + (h : EReal) * (q : EReal)) + (r : EReal))
      = ((h : EReal) * ((∑ k, (x k : EReal) * (a k : EReal)) + (p : EReal))
          + (h : EReal) * ((∑ k, (x k : EReal) * (b k : EReal)) + (q : EReal)))
        + ((∑ k, (x k : EReal) * (c k : EReal)) + (r : EReal)) := by
  simp only [← EReal.coe_mul, ← EReal.coe_add, ← coe_sum]
  exact congrArg _ (law_real h x a b c p q r)

/-- THE LAW: on arrays of real numbers the fused form is the split form, index by index. -/
theorem fused_eq_split (X : SX.Idx → EReal) (Wi : SW.Idx → EReal) (bi : SB.Idx → EReal) (Wo : SW.Idx → EReal)
    (bo : SB.Idx → EReal) (Wr : SW.Idx → EReal) (br : SB.Idx → EReal)
    (hX : ∀ i, ∃ v : ℝ, X i = v) (hWi : ∀ i, ∃ v : ℝ, Wi i = v) (hbi : ∀ i, ∃ v : ℝ, bi i = v)
    (hWo : ∀ i, ∃ v : ℝ, Wo i = v) (hbo : ∀ i, ∃ v : ℝ, bo i = v)
    (hWr : ∀ i, ∃ v : ℝ, Wr i = v) (hbr : ∀ i, ∃ v : ℝ, br i = v) :
    fused X Wi bi Wo bo Wr br = split X Wi bi Wo bo Wr br := by
  choose x hx using hX
  choose wi hwi using hWi
  choose vi hvi using hbi
  choose wo hwo using hWo
  choose vo hvo using hbo
  choose wr hwr using hWr
  choose vr hvr using hbr
  funext i
  unfold fused split
  simp only [hx, hwi, hvi, hwo, hvo, hwr, hvr, half_eq]
  exact law_ereal (1 / 2) (fun k => x (ix2 (i 0) k)) (fun k => wo (ix2 k (i 1))) (fun k => wi (ix2 k (i 1)))
    (fun k => wr (ix2 k (i 1))) (vo (ix1 (i 1))) (vi (ix1 (i 1))) (vr (ix1 (i 1)))

end Cert.Fused

end
-- ==== Proof.Finite.lean ====
/-
  From the precondition to real numbers.

  The precondition is the conjunction, over the seven float inputs, of "every entry's absolute value is
  below plus infinity".  On the extended reals an entry with `max x (-x) < ⊤` is neither `⊤` nor `⊥`,
  hence the image of a real number.  Each conjunct is a reduction by `and` over all axes of an array of
  one-bit comparisons, so it being one makes every comparison one.
-/
import proofs.«175866_j42640435315454_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx

/-- The scalar shape has one index. -/
instance : Subsingleton (⟨0, ![]⟩ : Shape).Idx := ⟨fun _ _ => funext fun d => d.elim0⟩

/-- The f32 pattern the precondition compares against denotes plus infinity. -/
theorem inf_eq : Ideal.ofBits .f32 0x7F800000#32 = (⊤ : EReal) := by
  simp [Ideal.ofBits, Ideal.ieee]

/-- An extended real whose absolute value is below plus infinity is a real number. -/
theorem real_of_abs_lt_top (x : EReal) (h : Ideal.cmp .olt (max x (-x)) (⊤ : EReal) = 1#1) : ∃ v : ℝ, x = v := by
  induction x using EReal.rec with
  | bot => simp [Ideal.cmp] at h
  | coe v => exact ⟨v, rfl⟩
  | top => simp [Ideal.cmp] at h

/-- One conjunct: if the reduction by `and` of `|x| < +inf` over every axis is one, every entry of `x` is real. -/
theorem all_real {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi (cmpf .olt (Host.absf x) (broadcastInDim s ![] hb (constant (F := Ideal) (⟨0, ![]⟩ : Shape) .f32 0x7F800000#32)))
        (constantI (⟨0, ![]⟩ : Shape) 1 1#1) hr hu ix0 = 1#1) :
    ∀ i, ∃ v : ℝ, x i = v := by
  intro i
  have hi := Host.reduce_andi_all _ _ hr hu _ e i
  refine real_of_abs_lt_top (x i) ?_
  rw [← inf_eq]
  exact hi

/-- THE PRECONDITION, READ: all seven float inputs hold real numbers. -/
theorem of_pre [Cert.Pre_finite_inputs.Facts]
    (a0 : FVec Ideal Cert.Pre_finite_inputs.S64x256x1024 .f32) (a1 : IVec Cert.Pre_finite_inputs.S64x256x256 32)
    (a2 : FVec Ideal Cert.Pre_finite_inputs.S1024x512 .f32) (a3 : FVec Ideal Cert.Pre_finite_inputs.S512 .f32)
    (a4 : FVec Ideal Cert.Pre_finite_inputs.S1024x512 .f32) (a5 : FVec Ideal Cert.Pre_finite_inputs.S512 .f32)
    (a6 : FVec Ideal Cert.Pre_finite_inputs.S1024x512 .f32) (a7 : FVec Ideal Cert.Pre_finite_inputs.S512 .f32)
    (h : Cert.Pre_finite_inputs.fn (F := Ideal) a0 a1 a2 a3 a4 a5 a6 a7 = fun _ => 1#1) :
    (∀ i, ∃ v : ℝ, a0 i = v) ∧ (∀ i, ∃ v : ℝ, a2 i = v) ∧ (∀ i, ∃ v : ℝ, a3 i = v) ∧ (∀ i, ∃ v : ℝ, a4 i = v)
      ∧ (∀ i, ∃ v : ℝ, a5 i = v) ∧ (∀ i, ∃ v : ℝ, a6 i = v) ∧ (∀ i, ∃ v : ℝ, a7 i = v) := by
  have h0 := congrFun h ix0
  dsimp only [Cert.Pre_finite_inputs.fn, Cert.Pre_finite_inputs.fn_part1] at h0
  simp only [andi, IntOp.andi_eq_one] at h0
  obtain ⟨⟨⟨⟨⟨⟨e0, e2⟩, e3⟩, e4⟩, e5⟩, e6⟩, e7⟩ := h0
  exact ⟨all_real a0 _ _ _ e0, all_real a2 _ _ _ e2, all_real a3 _ _ _ e3, all_real a4 _ _ _ e4,
    all_real a5 _ _ _ e5, all_real a6 _ _ _ e6, all_real a7 _ _ _ e7⟩

end Cert.Finite

end
-- ==== Proof.KernelBlock.lean ====
/-
  The kernel body's arithmetic at one entry of its output block.

  At a grid point the body loads a [1024, 1024] block of activations, the whole [1024, 512] combined weight
  and the [1, 512] combined bias, multiplies the first two on the matrix unit into a zero accumulator and adds
  the bias row broadcast down the rows.  The narrowing to bf16 before the product is the identity on extended
  reals, and the casts between equal shapes are identities.  So entry `(p, q)` of what is stored is
      `∑ k, x p k * w k q + b 0 q`.
-/
import proofs.«175866_j42640435315454_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-! ## The product's operand indices, axis by axis -/

theorem lhs_row (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_contr (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_contr (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_col (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The block product into a zero accumulator, at entry `(p, q)`: row `p` of the left block times column `q` of the
    right one. -/
theorem matmul_at {φ₁ φ₂ : FTy} (l : FVec Ideal S1024x1024 φ₁) (r : FVec Ideal S1024x512 φ₂) (p : Fin 1024) (q : Fin 512) :
    matmul dot_S1024x1024_S1024x512_S1024x512_1_0_0_1_n_n none l r (constant S1024x512 .f32 0x00000000#32) (ix2 p q)
      = ∑ k : Fin 1024, l (ix2 p k) * r (ix2 k q) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact lhs_row _ _
    | ⟨1, _⟩ => exact (lhs_contr _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (rhs_contr _ _).trans hk
    | ⟨1, _⟩ => exact rhs_col _ _)
  rw [el, er]

/-- WHAT THE BODY STORES, at entry `(p, q)` of the output block. -/
theorem pay_at (x : Vec Ideal S1024x1024 .f32) (w : Vec Ideal S1024x512 .f32) (b : Vec Ideal S1x512 .f32) (p : Fin 1024) (q : Fin 512) :
    k0_pay1 (F := Ideal) x w b (ix2 p q) = (∑ k : Fin 1024, x (ix2 p k) * w (ix2 k q)) + b (ix2 (0 : Fin 1) q) := by
  unfold k0_pay1
  rw [addf_apply, matmul_at, broadcastTo_1b_ab_apply, shapeCast_self, shapeCast_self, shapeCast_self]
  rfl

end Cert.KernelIdeal.Block

end
-- ==== Proof.KernelValue.lean ====
/-
  What the idealized kernel program leaves in its result, as one function of the argument arrays.

  Before the region the host lines flatten the activations to a matrix `X` [16384, 1024], combine the three weight
  matrices into `(h * Wo + h * Wi) + Wr` and the three bias vectors into `(h * bo + h * bi) + br` laid out as
  one row [1, 512].  The region has 16 grid points; point `t` reads rows `1024 t … 1024 t + 1023` of `X`, all of
  the combined weight and the bias row, and writes rows `1024 t … 1024 t + 1023` of the [16384, 512] result.  So
  entry `(1024 t + p, q)` of the result is row `1024 t + p` of `X` times column `q` of the combined weight plus
  the combined bias at `q`: the fused form, whatever the point.  The 16 row bands tile the result, hence the
  whole array is the fused form, and the last host line only reshapes it to [64, 256, 512].
-/
import proofs.«175866_j42640435315454_1_alg».proof.Proof.Gen.KernelIdeal.Frame
import proofs.«175866_j42640435315454_1_alg».proof.Proof.KernelBlock
import proofs.«175866_j42640435315454_1_alg».proof.Proof.Law
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL Idealize.SL.Sem Idealize.ShloMosaic.StableHlo
open Idealize.ShloMosaic.Pipeline (Dat Cfg Window)

variable (m : (ℓ : Loc nD τ sig) → Buf (Elt Ideal) ℓ) (ρ : Dev nD → PrngReg)

/-! ## The arrays the region finds -/

/-- The activations flattened to a matrix. -/
abbrev X (c : Dev nD) : S16384x1024.Idx → EReal :=
  shapeCast S16384x1024 (m ((c : Thread nD τ).loc main_arg0)) shapeCasts_S64x256x1024_S16384x1024

/-- The combined weight matrix. -/
abbrev Wc (c : Dev nD) : S1024x512.Idx → EReal :=
  addf (addf (mulf (broadcastInDim S1024x512 ![] bcast_S_S1024x512 (constant (F := Ideal) S_ .f32 0x3F000000#32)) (m ((c : Thread nD τ).loc main_arg4)))
      (mulf (broadcastInDim S1024x512 ![] bcast_S_S1024x512 (constant (F := Ideal) S_ .f32 0x3F000000#32)) (m ((c : Thread nD τ).loc main_arg2))))
    (m ((c : Thread nD τ).loc main_arg6))

/-- The combined bias vector. -/
abbrev bc (c : Dev nD) : S512.Idx → EReal :=
  addf (addf (mulf (broadcastInDim S512 ![] bcast_S_S512 (constant (F := Ideal) S_ .f32 0x3F000000#32)) (m ((c : Thread nD τ).loc main_arg5)))
      (mulf (broadcastInDim S512 ![] bcast_S_S512 (constant (F := Ideal) S_ .f32 0x3F000000#32)) (m ((c : Thread nD τ).loc main_arg3))))
    (m ((c : Thread nD τ).loc main_arg7))

theorem V_v0 (c : Dev nD) : (V m c main_v0 : S16384x1024.Idx → EReal) = X m c := by
  show StableHlo.after hostOps0 (fun b => m (c, b)) (Proc.devRef .tc main_v0) = _
  after_results
  rfl

theorem V_v6 (c : Dev nD) : (V m c main_v6 : S1024x512.Idx → EReal) = Wc m c := by
  show StableHlo.after hostOps0 (fun b => m (c, b)) (Proc.devRef .tc main_v6) = _
  after_results

theorem V_v13 (c : Dev nD) : (V m c main_v13 : S1x512.Idx → EReal) = shapeCast S1x512 (bc m c) shapeCasts_S512_S1x512 := by
  show StableHlo.after hostOps0 (fun b => m (c, b)) (Proc.devRef .tc main_v13) = _
  after_results
  rfl

/-- The combined weight at an entry. -/
theorem Wc_at (c : Dev nD) (k : Fin 1024) (n : Fin 512) :
    Wc m c (ix2 k n) = (Cert.Fused.half * m ((c : Thread nD τ).loc main_arg4) (ix2 k n) + Cert.Fused.half * m ((c : Thread nD τ).loc main_arg2) (ix2 k n))
      + m ((c : Thread nD τ).loc main_arg6) (ix2 k n) := rfl

/-- The bias row at an entry. -/
theorem bias_at (c : Dev nD) (n : Fin 512) :
    shapeCast S1x512 (bc m c) shapeCasts_S512_S1x512 (ix2 (0 : Fin 1) n)
      = (Cert.Fused.half * m ((c : Thread nD τ).loc main_arg5) (ix1 n) + Cert.Fused.half * m ((c : Thread nD τ).loc main_arg3) (ix1 n))
        + m ((c : Thread nD τ).loc main_arg7) (ix1 n) := by
  rw [shapeCast_a_1a_apply]
  rfl

/-! ## The result as one function of the arguments -/

/-- The [16384, 512] result: the fused form of the flattened activations and the six parameter arrays. -/
abbrev G (c : Dev nD) : S16384x512.Idx → EReal :=
  Cert.Fused.fused (X m c) (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-! ## The index maps over the grid -/

theorem hz : (![0, 0] : Fin 2 → Nat) = fun _ => 0 := funext fun a => by fin_cases a <;> rfl

/-- The activations' and the result's blocks move down one band per point; the weight's and the bias's stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of band `t`. -/
def row (t : Fin cfg0.N) (p : Fin 1024) : Fin 16384 :=
  ⟨t.val * 1024 + p.val, by have ht : t.val < grid0.N := t.isLt; have h : grid0.N = 16 := N_0
                            have hp := p.isLt; omega⟩

theorem emb_x (t : Fin cfg0.N) (p k : Fin 1024) :
    ((cfg0.win 0).blk t).view.emb (ix2 p k) = (ix2 (row t p) k : S16384x1024.Idx) := by
  obtain ⟨e0, e1, -⟩ := idx_facts t
  funext a; apply Fin.ext
  match a with
  | ⟨0, _⟩ => show win0_0.index t (0 : Fin 2) * 1024 + 1 * p.val = t.val * 1024 + p.val; omega
  | ⟨1, _⟩ => show win0_0.index t (1 : Fin 2) * 1024 + 1 * k.val = k.val; omega

theorem emb_w (t : Fin cfg0.N) (k : Fin 1024) (q : Fin 512) :
    ((cfg0.win 1).blk t).view.emb (ix2 k q) = (ix2 k q : S1024x512.Idx) := by
  obtain ⟨-, -, e0, e1, -⟩ := idx_facts t
  funext a; apply Fin.ext
  match a with
  | ⟨0, _⟩ => show win0_1.index t (0 : Fin 2) * 1024 + 1 * k.val = k.val; omega
  | ⟨1, _⟩ => show win0_1.index t (1 : Fin 2) * 512 + 1 * q.val = q.val; omega

theorem emb_b (t : Fin cfg0.N) (u : Fin 1) (q : Fin 512) :
    ((cfg0.win 2).blk t).view.emb (ix2 u q) = (ix2 u q : S1x512.Idx) := by
  obtain ⟨-, -, -, -, e0, e1, -⟩ := idx_facts t
  funext a; apply Fin.ext
  match a with
  | ⟨0, _⟩ => show win0_2.index t (0 : Fin 2) * 1 + 1 * u.val = u.val; omega
  | ⟨1, _⟩ => show win0_2.index t (1 : Fin 2) * 512 + 1 * q.val = q.val; omega

theorem emb_y (t : Fin cfg0.N) (p : Fin 1024) (q : Fin 512) :
    ((cfg0.win 3).blk t).view.emb (ix2 p q) = (ix2 (row t p) q : S16384x512.Idx) := by
  obtain ⟨-, -, -, -, -, -, e0, e1⟩ := idx_facts t
  funext a; apply Fin.ext
  match a with
  | ⟨0, _⟩ => show win0_3.index t (0 : Fin 2) * 1024 + 1 * p.val = t.val * 1024 + p.val; omega
  | ⟨1, _⟩ => show win0_3.index t (1 : Fin 2) * 512 + 1 * q.val = q.val; omega

/-! ## The input blocks at a point, entry by entry -/

/-- Band `t` of the activations. -/
theorem blk_x (c : Dev nD) (t : Fin cfg0.N) (p k : Fin 1024) :
    (iblk m c 0 t : S1024x1024.Idx → EReal) (ix2 p k) = X m c (ix2 (row t p) k) := by
  show (V m c main_v0 : S16384x1024.Idx → EReal) (((cfg0.win 0).blk t).view.emb (ix2 p k)) = _
  rw [emb_x, V_v0]

/-- The whole combined weight, at every point. -/
theorem blk_w (c : Dev nD) (t : Fin cfg0.N) (k : Fin 1024) (q : Fin 512) :
    (iblk m c 1 t : S1024x512.Idx → EReal) (ix2 k q) = Wc m c (ix2 k q) := by
  show (V m c main_v6 : S1024x512.Idx → EReal) (((cfg0.win 1).blk t).view.emb (ix2 k q)) = _
  rw [emb_w, V_v6]

/-- The bias row, at every point. -/
theorem blk_b (c : Dev nD) (t : Fin cfg0.N) (q : Fin 512) :
    (iblk m c 2 t : S1x512.Idx → EReal) (ix2 (0 : Fin 1) q) = shapeCast S1x512 (bc m c) shapeCasts_S512_S1x512 (ix2 (0 : Fin 1) q) := by
  show (V m c main_v13 : S1x512.Idx → EReal) (((cfg0.win 2).blk t).view.emb (ix2 (0 : Fin 1) q)) = _
  rw [emb_b, V_v13]

/-! ## What a point writes back -/

/-- WHAT POINT `t` WRITES BACK is band `t` of the fused form. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S1024x1024) hz, View.ld_unit_zero (S := S1024x512) hz, View.ld_unit_zero (S := S1x512) hz]
  funext j
  obtain ⟨p, q, rfl⟩ : ∃ (p : Fin 1024) (q : Fin 512), j = ix2 p q := ⟨j 0, j 1, eq_ix2 j⟩
  show k0_pay1 (F := Ideal) (iblk m c 0 t) (iblk m c 1 t) (iblk m c 2 t) (ix2 p q) = G m c (((cfg0.win 3).blk t).view.emb (ix2 p q))
  refine (Block.pay_at (iblk m c 0 t) (iblk m c 1 t) (iblk m c 2 t) p q).trans ?_
  rw [emb_y]
  simp only [blk_x m c t, blk_w m c t, blk_b m c t, bias_at m c, Wc_at m c]
  rfl

/-! ## The bands tile the result -/

theorem mem_blk (t : Fin cfg0.N) (i : S16384x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v14).slice (win0_3.rect t)).set ↔ _
  rw [View.set_slice_whole, Rect.mem_set_unit]
  exact Iff.rfl

/-- Every entry of the result lies in the band of the point its row falls in. -/
theorem cover (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  have hN := N_0
  let t : Fin cfg0.N := ⟨(i 0).val / 1024, by show (i 0).val / 1024 < grid0.N; omega⟩
  obtain ⟨-, -, -, -, -, -, e0, e1⟩ := idx_facts t
  have ht : t.val = (i 0).val / 1024 := rfl
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE RESULT ARRAY after the region is the fused form. -/
theorem final (c : Dev nD) : (dats m 0 c).arrAt 3 cfg0.N = G m c :=
  (dats m 0 c).arrAt_eq_of_cover 3 (G m c) (fun t _ => flushed_eq m c t) cover

/-! ## The line after the region, and the run -/

/-- The program's result: the fused form reshaped to [64, 256, 512]. -/
abbrev result (c : Dev nD) : S64x256x512.Idx → EReal :=
  shapeCast S64x256x512 (G m c) shapeCasts_S16384x512_S64x256x512

theorem tail_eq (c : Dev nD) :
    Pipeline.afterTail₀ cfgs (dats m) 0 (V0 m) [hostOps1] c main_v15 = result m c := by
  unfold Pipeline.afterTail₀
  show StableHlo.after hostOps1 _ (Proc.devRef .tc main_v15) = _
  after_results
  rw [(Pipeline.withArrays_arr spec0 launch0.win.arr_inj c _ _ 3).trans (final m c)]
  rfl

/-- THE RUN: every weakly fair execution terminates, the result at the fused form reshaped, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.RegionValue

end
-- ==== Proof.RefValue.lean ====
/-
  What the reference computes, as one function of the argument arrays.

  The reference flattens the activations to the same matrix `X`, forms the three products `X · Wo`, `X · Wi`,
  `X · Wr`, adds to each its bias broadcast down the rows, scales the first two by one half and adds the three.
  Read at an entry `(r, n)` this is the split form; the last line reshapes it to [64, 256, 512].
-/
import proofs.«175866_j42640435315454_1_alg».proof.Proof.Gen.ReferenceIdeal.Run
import proofs.«175866_j42640435315454_1_alg».proof.Proof.Gen.ReferenceIdeal.Read
import proofs.«175866_j42640435315454_1_alg».proof.Proof.Law

noncomputable section

namespace Cert.ReferenceIdeal.RefValue

open Cert.ReferenceIdeal Cert.ReferenceIdeal.Gen Cert.ReferenceIdeal.Read Idealize.ShloMosaic Idealize.ShloMosaic.ValueIdx

/-! ## The printed index functions are the coordinates' -/

theorem row_v1 (i : S16384x512.Idx) (k : Fin 1024) : lidx_main_v1 i k = ix2 (i 0) k :=
  funext fun a => Fin.ext (by match a with | ⟨0, _⟩ => rfl | ⟨1, _⟩ => rfl)
theorem col_v1 (i : S16384x512.Idx) (k : Fin 1024) : ridx_main_v1 i k = ix2 k (i 1) :=
  funext fun a => Fin.ext (by match a with | ⟨0, _⟩ => rfl | ⟨1, _⟩ => rfl)
theorem row_v7 (i : S16384x512.Idx) (k : Fin 1024) : lidx_main_v7 i k = ix2 (i 0) k :=
  funext fun a => Fin.ext (by match a with | ⟨0, _⟩ => rfl | ⟨1, _⟩ => rfl)
theorem col_v7 (i : S16384x512.Idx) (k : Fin 1024) : ridx_main_v7 i k = ix2 k (i 1) :=
  funext fun a => Fin.ext (by match a with | ⟨0, _⟩ => rfl | ⟨1, _⟩ => rfl)
theorem row_v14 (i : S16384x512.Idx) (k : Fin 1024) : lidx_main_v14 i k = ix2 (i 0) k :=
  funext fun a => Fin.ext (by match a with | ⟨0, _⟩ => rfl | ⟨1, _⟩ => rfl)
theorem col_v14 (i : S16384x512.Idx) (k : Fin 1024) : ridx_main_v14 i k = ix2 k (i 1) :=
  funext fun a => Fin.ext (by match a with | ⟨0, _⟩ => rfl | ⟨1, _⟩ => rfl)
theorem bias_v3 (i : S16384x512.Idx) : idx_main_v2 (idx_main_v3 i) = ix1 (i 1) :=
  funext fun a => Fin.ext (by match a with | ⟨0, _⟩ => rfl)
theorem bias_v9 (i : S16384x512.Idx) : idx_main_v8 (idx_main_v9 i) = ix1 (i 1) :=
  funext fun a => Fin.ext (by match a with | ⟨0, _⟩ => rfl)
theorem bias_v16 (i : S16384x512.Idx) : idx_main_v15 (idx_main_v16 i) = ix1 (i 1) :=
  funext fun a => Fin.ext (by match a with | ⟨0, _⟩ => rfl)

/-- THE REFERENCE'S [16384, 512] RESULT is the split form of the flattened activations and the six parameter arrays. -/
theorem sum_eq_split (x0 : FVec Ideal S64x256x1024 .f32) (x2 : FVec Ideal S1024x512 .f32) (x3 : FVec Ideal S512 .f32)
    (x4 : FVec Ideal S1024x512 .f32) (x5 : FVec Ideal S512 .f32) (x6 : FVec Ideal S1024x512 .f32) (x7 : FVec Ideal S512 .f32) :
    val_main_v18 (F := Ideal) x0 x2 x3 x4 x5 x6 x7 = Cert.Fused.split (val_main_v0 (F := Ideal) x0) x2 x3 x4 x5 x6 x7 := by
  funext i
  rw [val_main_v18_apply, val_main_v13_apply, val_main_v17_apply, val_main_v6_apply, val_main_v12_apply,
    val_main_v4_apply, val_main_v10_apply, val_main_v1_apply, val_main_v7_apply, val_main_v14_apply,
    val_main_v3_apply, val_main_v9_apply, val_main_v16_apply, val_main_v2_apply, val_main_v8_apply, val_main_v15_apply,
    val_main_v5_apply, val_main_v11_apply, val_main_cst_apply, val_main_cst_0_apply]
  simp only [row_v1, col_v1, row_v7, col_v7, row_v14, col_v14, bias_v3, bias_v9, bias_v16,
    Ideal.addf_def, Ideal.mulf_def, Ideal.ofBits_def]
  rfl

end Cert.ReferenceIdeal.RefValue

end
-- ==== Proof.lean ====
/-
  The kernel computes a directed graph convolution whose three linear maps share one input: with `X` the
  activations flattened to [16384, 1024], it forms the combined weight `(h * Wo + h * Wi) + Wr` and the combined
  bias `(h * bo + h * bi) + br` (`h` one half) and does ONE matrix product, 16 row bands of 1024 rows each.  The
  reference does the three products separately, adds each bias, scales the first two by `h` and sums.

  Proof/Law.lean        the two index-by-index forms and the law between them: distributivity over the finite sum,
                        valid where every entry is a real number;
  Proof/Finite.lean     the precondition gives exactly that: every float input holds real numbers;
  Proof/KernelBlock.lean   one entry of what the kernel body stores: a row times a column plus the bias;
  Proof/KernelValue.lean   the idealized kernel program's result is the fused form (the bands tile the result);
  Proof/RefValue.lean   the reference's result is the split form.

  The narrowing of the product's operands to bf16 is the identity on extended reals, so the idealization rewrote
  nothing and `preserves` has no conjunct.  The three frames: the two kernel programs' are generated whole, and the
  reference's is its run with the result dropped.
-/
import proofs.«175866_j42640435315454_1_alg».proof.Defs
import proofs.«175866_j42640435315454_1_alg».proof.Proof.Gen.Kernel
import proofs.«175866_j42640435315454_1_alg».proof.Proof.Gen.Kernel.Skeleton
import proofs.«175866_j42640435315454_1_alg».proof.Proof.Gen.Kernel.Launch
import proofs.«175866_j42640435315454_1_alg».proof.Proof.Gen.Kernel.Points
import proofs.«175866_j42640435315454_1_alg».proof.Proof.Gen.Kernel.Frame
import proofs.«175866_j42640435315454_1_alg».proof.Proof.Gen.KernelIdeal
import proofs.«175866_j42640435315454_1_alg».proof.Proof.Gen.KernelIdeal.Skeleton
import proofs.«175866_j42640435315454_1_alg».proof.Proof.Gen.KernelIdeal.Launch
import proofs.«175866_j42640435315454_1_alg».proof.Proof.Gen.KernelIdeal.Points
import proofs.«175866_j42640435315454_1_alg».proof.Proof.Gen.KernelIdeal.Frame
import proofs.«175866_j42640435315454_1_alg».proof.Proof.Gen.ReferenceIdeal
import proofs.«175866_j42640435315454_1_alg».proof.Proof.Gen.ReferenceIdeal.Run
import proofs.«175866_j42640435315454_1_alg».proof.Proof.Gen.ReferenceIdeal.Read
import proofs.«175866_j42640435315454_1_alg».proof.Proof.Gen.Pre_finite_inputs
import proofs.«175866_j42640435315454_1_alg».proof.Proof.Law
import proofs.«175866_j42640435315454_1_alg».proof.Proof.Finite
import proofs.«175866_j42640435315454_1_alg».proof.Proof.KernelValue
import proofs.«175866_j42640435315454_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the fused form of the flattened activations and the six parameter arrays, reshaped to
    [64, 256, 512]: the kernel program by its run, the reference because its split form is the fused form on
    arrays of real numbers, which the precondition provides. -/
theorem algebraic : Cert.algebraic_KernelIdeal_ReferenceIdeal := by
  intro m ρ m' ρ' hpre hagree
  refine ⟨fun c => Cert.KernelIdeal.RegionValue.result m c, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, _, h2, h3, h4, h5, h6, h7⟩ := hagree c
  obtain ⟨f0, f2, f3, f4, f5, f6, f7⟩ := Cert.Finite.of_pre _ _ _ _ _ _ _ _ (hpre c)
  have hX : ∀ i, ∃ v : ℝ, Cert.KernelIdeal.RegionValue.X m c i = v := fun i => f0 _
  rw [Cert.ReferenceIdeal.Read.val_main_v19_eq, h0, h2, h3, h4, h5, h6, h7]
  unfold Cert.ReferenceIdeal.Read.val_main_v19
  rw [Cert.ReferenceIdeal.RefValue.sum_eq_split]
  show shapeCast _ (Cert.Fused.split (Cert.KernelIdeal.RegionValue.X m c) _ _ _ _ _ _) _ = _
  rw [← Cert.Fused.fused_eq_split _ _ _ _ _ _ _ hX f2 f3 f4 f5 f6 f7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
